-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S16384x2 : Shape := ⟨2, ![16384, 2]⟩
abbrev S256x64 : Shape := ⟨2, ![256, 64]⟩
abbrev S64 : Shape := ⟨1, ![64]⟩
abbrev S128x16 : Shape := ⟨2, ![128, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S16 .f32) (main_arg7 : FVec F S16x1 .f32) (main_arg8 : FVec F S1 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg7
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : IVec S16384x2 32) (main_arg3 : FVec F S256x64 .f32) (main_arg4 : FVec F S64 .f32) (main_arg5 : FVec F S128x16 .f32) (main_arg6 : FVec F S16 .f32) (main_arg7 : FVec F S16x1 .f32) (main_arg8 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x16 .f32 := Host.absf main_arg5
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg6 main_arg7 main_arg8 main_v13 main_v16
-- ==== Kernel.lean ====
abbrev S100000x256 : Shape := ⟨2, ![100000, 256]⟩
abbrev S2x1600000 : Shape := ⟨2, ![2, 1600000]⟩
abbrev S16384x2 : Shape := ⟨2, ![16384, 2]⟩
abbrev S256x64 : Shape := ⟨2, ![256, 64]⟩
abbrev S64 : Shape := ⟨1, ![64]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000x64 : Shape := ⟨2, ![100000, 64]⟩
abbrev S5000x256 : Shape := ⟨2, ![5000, 256]⟩
abbrev S5000x64 : Shape := ⟨2, ![5000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S16384x1 : Shape := ⟨2, ![16384, 1]⟩
abbrev S16384 : Shape := ⟨1, ![16384]⟩
abbrev S16384x64 : Shape := ⟨2, ![16384, 64]⟩
abbrev S2048x64 : Shape := ⟨2, ![2048, 64]⟩
abbrev S2048x1 : Shape := ⟨2, ![2048, 1]⟩
abbrev S2048x128 : Shape := ⟨2, ![2048, 128]⟩
abbrev S2048x16 : Shape := ⟨2, ![2048, 16]⟩
abbrev S1x16 : Shape := ⟨2, ![1, 16]⟩
abbrev S1x1 : Shape := ⟨2, ![1, 1]⟩

abbrev nBuf : Space → Nat
  | .hbm => 99
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S16384x2, .i32⟩
  | .hbm, ⟨3, _⟩ => ⟨S256x64, .f32⟩
  | .hbm, ⟨4, _⟩ => ⟨S64, .f32⟩
  | .hbm, ⟨5, _⟩ => ⟨S128x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S100000x64, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .i1⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S16384x1, .i32⟩
  | .hbm, ⟨77, _⟩ => ⟨S16384, .i32⟩
  | .hbm, ⟨78, _⟩ => ⟨S16384x1, .i32⟩
  | .hbm, ⟨79, _⟩ => ⟨S16384, .i32⟩
  | .hbm, ⟨80, _⟩ => ⟨S_, .i32⟩
  | .hbm, ⟨81, _⟩ => ⟨S16384, .i32⟩
  | .hbm, ⟨82, _⟩ => ⟨S16384, .i1⟩
  | .hbm, ⟨83, _⟩ => ⟨S_, .i32⟩
  | .hbm, ⟨84, _⟩ => ⟨S16384, .i32⟩
  | .hbm, ⟨85, _⟩ => ⟨S16384, .i32⟩
  | .hbm, ⟨86, _⟩ => ⟨S16384, .i32⟩
  | .hbm, ⟨87, _⟩ => ⟨S16384x1, .i32⟩
  | .hbm, ⟨88, _⟩ => ⟨S16384x64, .f32⟩
  | .hbm, ⟨89, _⟩ => ⟨S_, .i32⟩
  | .hbm, ⟨90, _⟩ => ⟨S16384, .i32⟩
  | .hbm, ⟨91, _⟩ => ⟨S16384, .i1⟩
  | .hbm, ⟨92, _⟩ => ⟨S_, .i32⟩
  | .hbm, ⟨93, _⟩ => ⟨S16384, .i32⟩
  | .hbm, ⟨94, _⟩ => ⟨S16384, .i32⟩
  | .hbm, ⟨95, _⟩ => ⟨S16384, .i32⟩
  | .hbm, ⟨96, _⟩ => ⟨S16384x1, .i32⟩
  | .hbm, ⟨97, _⟩ => ⟨S16384x64, .f32⟩
  | .hbm, ⟨98, _⟩ => ⟨S16384x1, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S128x16, .f32⟩
  | .local _ .vmem, ⟨10, _⟩ => ⟨S16, .f32⟩
  | .local _ .vmem, ⟨11, _⟩ => ⟨S16x1, .f32⟩
  | .local _ .vmem, ⟨12, _⟩ => ⟨S1, .f32⟩
  | .local _ .vmem, ⟨13, _⟩ => ⟨S2048x1, .f32⟩
  | .local _ .vmem, ⟨14, _⟩ => ⟨S2048x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S16384 : S_.BroadcastsInDim S16384 (![] : Fin 0 → Fin S16384.rank)
  bcast_S16384_S16384x1_0 : S16384.BroadcastsInDim S16384x1 (![0] : Fin 1 → Fin S16384x1.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  concatenates_S2048x64_S2048x64_S2048x128_d1 : Shape.Concatenates [S2048x64, S2048x64] S2048x128 1
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S2048x16 : S1x16.Broadcasts S2048x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S5000x256_S256x64_S5000x64_1_0_0_1_n_n_wf : DotDims.WF S5000x256 S256x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S16384x1_S16384x64_1_0_n_n_0_1_164_wf : GatherDims.WF S100000x64 S16384x1 S16384x64 [1] [0] [] [0] [] 1 ![1, 64]
  dot_S2048x128_S128x16_S2048x16_1_0_0_1_n_n_wf : DotDims.WF S2048x128 S128x16 S2048x16 [1] [0] [0] [1] [] []
  dot_S2048x16_S16x1_S2048x1_1_0_0_1_n_n_wf : DotDims.WF S2048x16 S16x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .f32 = 32 ∨ (Rect.block (s := S16384x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .f32 = 32 ∨ (Rect.block (s := S128x16) S128x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x1.size a ≤ S16x1.size a
  hwx1_4 : ∀ i : grid1.Coords, EltTy.bits .f32 = 32 ∨ (Rect.block (s := S16x1) S16x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1.size a ≤ S1.size a
  hwx1_5 : ∀ i : grid1.Coords, EltTy.bits .f32 = 32 ∨ (Rect.block (s := S1) S1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x1.size a ≤ S16384x1.size a
  hwx1_6 : ∀ i : grid1.Coords, EltTy.bits .f32 = 32 ∨ (Rect.block (s := S16384x1) S2048x1.size (cc1_transform_6 i) (hinb1_6 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def dot_S2048x128_S128x16_S2048x16_1_0_0_1_n_n : DotDims S2048x128 S128x16 S2048x16 where
  lhsContracting := [1]
  rhsContracting := [0]
  lhsNonContracting := [0]
  rhsNonContracting := [1]
  lhsBatch := []
  rhsBatch := []
  wf := dot_S2048x128_S128x16_S2048x16_1_0_0_1_n_n_wf
def dot_S2048x16_S16x1_S2048x1_1_0_0_1_n_n : DotDims S2048x16 S16x1 S2048x1 where
  lhsContracting := [1]
  rhsContracting := [0]
  lhsNonContracting := [0]
  rhsNonContracting := [1]
  lhsBatch := []
  rhsBatch := []
  wf := dot_S2048x16_S16x1_S2048x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v62) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v69) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S16x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v70) S2048x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S16384x2 : Shape := ⟨2, ![16384, 2]⟩
abbrev S256x64 : Shape := ⟨2, ![256, 64]⟩
abbrev S64 : Shape := ⟨1, ![64]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S16384x1 : Shape := ⟨2, ![16384, 1]⟩
abbrev S16384 : Shape := ⟨1, ![16384]⟩
abbrev S16384x64 : Shape := ⟨2, ![16384, 64]⟩
abbrev S16384x128 : Shape := ⟨2, ![16384, 128]⟩
abbrev S16384x16 : Shape := ⟨2, ![16384, 16]⟩
abbrev S1x16 : Shape := ⟨2, ![1, 16]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S16384x2, .i32⟩
  | .hbm, ⟨3, _⟩ => ⟨S256x64, .f32⟩
  | .hbm, ⟨4, _⟩ => ⟨S64, .f32⟩
  | .hbm, ⟨5, _⟩ => ⟨S128x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S100000x64, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .i1⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S16384x1, .i32⟩
  | .hbm, ⟨77, _⟩ => ⟨S16384, .i32⟩
  | .hbm, ⟨78, _⟩ => ⟨S_, .i32⟩
  | .hbm, ⟨79, _⟩ => ⟨S16384, .i32⟩
  | .hbm, ⟨80, _⟩ => ⟨S16384, .i1⟩
  | .hbm, ⟨81, _⟩ => ⟨S_, .i32⟩
  | .hbm, ⟨82, _⟩ => ⟨S16384, .i32⟩
  | .hbm, ⟨83, _⟩ => ⟨S16384, .i32⟩
  | .hbm, ⟨84, _⟩ => ⟨S16384, .i32⟩
  | .hbm, ⟨85, _⟩ => ⟨S16384x1, .i32⟩
  | .hbm, ⟨86, _⟩ => ⟨S16384x64, .f32⟩
  | .hbm, ⟨87, _⟩ => ⟨S16384x1, .i32⟩
  | .hbm, ⟨88, _⟩ => ⟨S16384, .i32⟩
  | .hbm, ⟨89, _⟩ => ⟨S_, .i32⟩
  | .hbm, ⟨90, _⟩ => ⟨S16384, .i32⟩
  | .hbm, ⟨91, _⟩ => ⟨S16384, .i1⟩
  | .hbm, ⟨92, _⟩ => ⟨S_, .i32⟩
  | .hbm, ⟨93, _⟩ => ⟨S16384, .i32⟩
  | .hbm, ⟨94, _⟩ => ⟨S16384, .i32⟩
  | .hbm, ⟨95, _⟩ => ⟨S16384, .i32⟩
  | .hbm, ⟨96, _⟩ => ⟨S16384x1, .i32⟩
  | .hbm, ⟨97, _⟩ => ⟨S16384x64, .f32⟩
  | .hbm, ⟨98, _⟩ => ⟨S16384x128, .f32⟩
  | .hbm, ⟨99, _⟩ => ⟨S16384x16, .f32⟩
  | .hbm, ⟨100, _⟩ => ⟨S1x16, .f32⟩
  | .hbm, ⟨101, _⟩ => ⟨S16384x16, .f32⟩
  | .hbm, ⟨102, _⟩ => ⟨S16384x16, .f32⟩
  | .hbm, ⟨103, _⟩ => ⟨S_, .f32⟩
  | .hbm, ⟨104, _⟩ => ⟨S16384x16, .f32⟩
  | .hbm, ⟨105, _⟩ => ⟨S16384x16, .i1⟩
  | .hbm, ⟨106, _⟩ => ⟨S_, .f32⟩
  | .hbm, ⟨107, _⟩ => ⟨S16384x16, .f32⟩
  | .hbm, ⟨108, _⟩ => ⟨S16384x16, .f32⟩
  | .hbm, ⟨109, _⟩ => ⟨S16384x16, .f32⟩
  | .hbm, ⟨110, _⟩ => ⟨S16384x1, .f32⟩
  | .hbm, ⟨111, _⟩ => ⟨S1x1, .f32⟩
  | .hbm, ⟨112, _⟩ => ⟨S16384x1, .f32⟩
  | .hbm, ⟨113, _⟩ => ⟨S16384x1, .f32⟩
  | .hbm, ⟨114, _⟩ => ⟨S16384x1, .f32⟩
  | .hbm, ⟨115, _⟩ => ⟨S16384x1, .f32⟩
  | .hbm, ⟨116, _⟩ => ⟨S_, .f32⟩
  | .hbm, ⟨117, _⟩ => ⟨S16384x1, .f32⟩
  | .hbm, ⟨118, _⟩ => ⟨S16384x1, .f32⟩
  | .hbm, ⟨119, _⟩ => ⟨S_, .f32⟩
  | .hbm, ⟨120, _⟩ => ⟨S16384x1, .f32⟩
  | .hbm, ⟨121, _⟩ => ⟨S16384x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_17 : Ref sig .tc := ⟨.hbm, 116, rfl⟩
abbrev main_v86 : Ref sig .tc := ⟨.hbm, 117, rfl⟩
abbrev main_v87 : Ref sig .tc := ⟨.hbm, 118, rfl⟩
abbrev main_cst_18 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S16384x2_S16384x1_0_1 : S16384x2.Slices ![0, 1] S16384x1
  concatenates_S16384x64_S16384x64_S16384x128_d1 : Shape.Concatenates [S16384x64, S16384x64] S16384x128 1
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S100000x256_S256x64_S100000x64_1_0_0_1_n_n_wf : DotDims.WF S100000x256 S256x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S16384x1_S16384x64_1_0_n_n_0_1_164_wf : GatherDims.WF S100000x64 S16384x1 S16384x64 [1] [0] [] [0] [] 1 ![1, 64]
  dot_S16384x128_S128x16_S16384x16_1_0_0_1_n_n_wf : DotDims.WF S16384x128 S128x16 S16384x16 [1] [0] [0] [1] [] []
  dot_S16384x16_S16x1_S16384x1_1_0_0_1_n_n_wf : DotDims.WF S16384x16 S16x1 S16384x1 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def dot_S16384x128_S128x16_S16384x16_1_0_0_1_n_n : DotDims S16384x128 S128x16 S16384x16 where
  lhsContracting := [1]
  rhsContracting := [0]
  lhsNonContracting := [0]
  rhsNonContracting := [1]
  lhsBatch := []
  rhsBatch := []
  wf := dot_S16384x128_S128x16_S16384x16_1_0_0_1_n_n_wf
def dot_S16384x16_S16x1_S16384x1_1_0_0_1_n_n : DotDims S16384x16 S16x1 S16384x1 where
  lhsContracting := [1]
  rhsContracting := [0]
  lhsNonContracting := [0]
  rhsNonContracting := [1]
  lhsBatch := []
  rhsBatch := []
  wf := dot_S16384x16_S16x1_S16384x1_1_0_0_1_n_n_wf

class Facts : Prop extends Facts₀ where

variable [Facts]
-- ==== Proof.DenseProduct.lean ====
/-
  The first region's array. Each of the twenty grid points multiplies five thousand rows of the node features by the
  whole weight matrix; an entry of a block is the sum over the 256 features of feature times weight, the change of float
  format being the identity on extended reals and the accumulator starting at zero. A block's row r is row 5000·t + r
  of the array, so the twenty blocks tile the array and it ends holding the whole product, entry by entry.
-/
import proofs.«152402_j10050223473070_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.DenseProduct

open Cert.KernelIdeal Cert.KernelIdeal.Gen Idealize.ShloMosaic Idealize.ShloMosaic.TcCoe Idealize.SL.Sem
open Idealize.ShloMosaic.Pipeline (Dat)

/-! ## One block's product, entry by entry -/

theorem lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_feat (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs_feat (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs_col (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Row `j 0`, feature `k` of a block of node features. -/
abbrev blockFeat (j : S5000x64.Idx) (k : Fin 256) : S5000x256.Idx := fun a => match a with
  | ⟨0, _⟩ => ⟨(j 0).val, (j 0).isLt⟩
  | ⟨1, _⟩ => ⟨k.val, k.isLt⟩
/-- Feature `k`, column `j 1` of the weights. -/
abbrev weightAt (j : S5000x64.Idx) (k : Fin 256) : S256x64.Idx := fun a => match a with
  | ⟨0, _⟩ => ⟨k.val, k.isLt⟩
  | ⟨1, _⟩ => ⟨(j 1).val, (j 1).isLt⟩

/-- The body's product into a zero accumulator is the plain sum over the features. -/
theorem block_entry (x0 : Vec Ideal S5000x256 .f32) (x1 : Vec Ideal S256x64 .f32) (j : S5000x64.Idx) :
    k0_pay1 (F := Ideal) x0 x1 j = ∑ k : Fin 256, x0 (blockFeat j k) * x1 (weightAt j k) := by
  unfold k0_pay1
  simp only [matmul]
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = blockFeat j k := funext fun a => Fin.ext (by
    match a with
    | ⟨0, _⟩ => exact lhs_row _ _
    | ⟨1, _⟩ => exact (lhs_feat _ _).trans hk)
  have er : dot_S5000x256_S256x64_S5000x64_1_0_0_1_n_n.rhsIdx j ((ValueIdx.contrEquiv1 dot_S5000x256_S256x64_S5000x64_1_0_0_1_n_n 256 rfl rfl).symm k) = weightAt j k := funext fun a => Fin.ext (by
    match a with
    | ⟨0, _⟩ => exact (rhs_feat _ _).trans hk
    | ⟨1, _⟩ => exact rhs_col _ _)
  rw [el, er]
  rfl

/-! ## From the blocks to the array -/

variable (V : (c : Dev nD) → (b : Ref sig .tc) → Buf (Elt Ideal) ((c : Thread nD τ).loc b))

/-- Row `i 0`, feature `k` of the node features. -/
abbrev featAt (i : S100000x64.Idx) (k : Fin 256) : S100000x256.Idx := fun a => match a with
  | ⟨0, _⟩ => ⟨(i 0).val, (i 0).isLt⟩
  | ⟨1, _⟩ => ⟨k.val, k.isLt⟩
/-- Feature `k`, column `i 1` of the weights. -/
abbrev weightOf (i : S100000x64.Idx) (k : Fin 256) : S256x64.Idx := fun a => match a with
  | ⟨0, _⟩ => ⟨k.val, k.isLt⟩
  | ⟨1, _⟩ => ⟨(i 1).val, (i 1).isLt⟩

/-- The product of the node features with the weights: entry (n, h) is the sum over the features k of x[n, k] · w[k, h]. -/
def product (x : (⟨S100000x256, .f32⟩ : BufTy).Contents (Elt Ideal)) (w : (⟨S256x64, .f32⟩ : BufTy).Contents (Elt Ideal)) :
    (⟨S100000x64, .f32⟩ : BufTy).Contents (Elt Ideal) :=
  fun i => ∑ k : Fin 256, x (featAt i k) * w (weightOf i k)

/-- The node features and the weights as the region finds them, at their literal types. -/
abbrev featArr (c : Dev nD) : (⟨S100000x256, .f32⟩ : BufTy).Contents (Elt Ideal) := V c main_arg0
abbrev weightArr (c : Dev nD) : (⟨S256x64, .f32⟩ : BufTy).Contents (Elt Ideal) := V c main_arg3

theorem origin2 : (![0, 0] : Fin 2 → Nat) = fun _ => 0 := funext fun a => by fin_cases a <;> rfl

/-- The printed index maps over the grid: the features' block moves with the output's block down the rows, the weights'
    block stays, and the output's block index is the point's number. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the product of the arrays the region finds. -/
theorem flushed_eq (c : Dev nD) (t : Fin cfg0.N) :
    (dat0 V c).flushed 2 t = ((cfg0.win 2).blk t).view.read (Elt Ideal) (product (featArr V c) (weightArr V c)) := by
  show (cfg0.win 2).cut (grid0.coords t) ((dat0 V c).after 2 t) = _
  rw [after0_2]
  unfold out0_2
  rw [View.canon_unit_zero origin2]
  simp only [View.ld_unit_zero (S := S5000x256) origin2, View.ld_unit_zero (S := S256x64) origin2]
  obtain ⟨e0, e1, e2, e3, e4, e5⟩ := block_indices t
  funext j
  refine (block_entry _ _ j).trans ?_
  show ∑ k : Fin 256, featArr V c (((cfg0.win 0).blk t).view.emb (blockFeat j k)) * weightArr V c (((cfg0.win 1).blk t).view.emb (weightAt j k))
    = ∑ k : Fin 256, featArr V c (featAt (((cfg0.win 2).blk t).view.emb j) k) * weightArr V c (weightOf (((cfg0.win 2).blk t).view.emb j) k)
  refine Finset.sum_congr rfl fun k _ => ?_
  have h0 : ((cfg0.win 0).blk t).view.emb (blockFeat j k) = featAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (weightAt j k) = weightOf (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega
  rw [h0, h1]

/-- An index of the array is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every row of the array is in the block of the point numbered by the row's quotient by 5000. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e0, e1, e2, e3, e4, e5⟩ := block_indices t
  have e5' : win0_2.index t (0 : Fin 2) = (i 0).val / 5000 := e5
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The first region's array after its run is the whole product. -/
theorem array_eq (c : Dev nD) : (dat0 V c).arrAt 2 cfg0.N = product (featArr V c) (weightArr V c) :=
  (dat0 V c).arrAt_eq_of_cover 2 (product (featArr V c) (weightArr V c)) (fun t _ => flushed_eq V c t) covered

end Cert.KernelIdeal.DenseProduct

end
-- ==== Proof.Aggregate.lean ====
/-
  The graph convolution between the two kernels, as functions of the transformed node features `h`.
  Every edge (s, t) of the list, and a self loop on every node, sends `h[s]` scaled by 1/√deg(s) · 1/√deg(t) to node t,
  where deg counts the edges (and the loop) arriving at a node; a node's embedding is the sum of what arrives plus the
  bias, passed through the leaky rectifier (slope 0.01 below zero). A negative node number is read from the end
  (100000 is added). The head then reads, for every queried pair, the embeddings of its two nodes.
  Stated for any float family: nothing here depends on how a float is read.
-/
import proofs.«152402_j10050223473070_1_alg».proof.KernelIdeal

noncomputable section

namespace Cert.KernelIdeal.Aggregate

open Cert.KernelIdeal Idealize.ShloMosaic

variable {F : FTy → Type} [FloatOps F] [Facts]
open Facts₀ Facts

/-- An edge list's row `0` (sources) followed by the nodes 0 … 99999, one self loop each. -/
def sources (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The edge list's row `1` (targets) followed by the nodes 0 … 99999. -/
def targets (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- Node numbers as gather indices: a negative one counted from the end. -/
def fromEnd (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- How many edges (self loop included) arrive at each node. -/
def degree (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32))
    (broadcastInDim S1700000x1 ![0] bcast_S1700000_S1700000x1_0 (targets e)) (broadcastInDim S1700000 ![] bcast_S_S1700000 (constant S_ .f32 0x3F800000#32))

/-- 1/√deg where the degree is positive, zero elsewhere. -/
def invRoot (e : (⟨S2x1600000, .i32⟩ : BufTy).Contents (Elt F)) : (⟨S100000, .f32⟩ : BufTy).Contents (Elt F) :=
  select (cmpf .ogt (degree e) (broadcastInDim S100000 ![] bcast_S_S100000 (constant S_ .f32 0x00000000#32))) (Host.rsqrt (degree e))
    (broadcastInDim S100000 ![] bcast_S_S100000 (id (constant S_ .f32 0x00000000#32)))

/-- An edge's weight: the product of its two endpoints' 1/√deg. -/
def edgeWeight (e : (⟨S2x1600000, .i32⟩ : BufTy).Contents (Elt F)) : (⟨S1700000, .f32⟩ : BufTy).Contents (Elt F) :=
  mulf (Host.gather gather_S100000_S1700000x1_S1700000_n_0_n_n_0_1_1 (invRoot e) (fromEnd (sources e)))
    (Host.gather gather_S100000_S1700000x1_S1700000_n_0_n_n_0_1_1 (invRoot e) (fromEnd (targets e)))

/-- What each edge carries: its source's row of `h`, scaled by the edge's weight. -/
def messages (h : (⟨S100000x64, .f32⟩ : BufTy).Contents (Elt F)) (e : (⟨S2x1600000, .i32⟩ : BufTy).Contents (Elt F)) :
    (⟨S1700000x64, .f32⟩ : BufTy).Contents (Elt F) :=
  mulf (Host.gather gather_S100000x64_S1700000x1_S1700000x64_1_0_n_n_0_1_164 h (fromEnd (sources e)))
    (broadcastInDim S1700000x64 ![0, 1] bcast_S1700000x1_S1700000x64_0_1 (broadcastInDim S1700000x1 ![0] bcast_S1700000_S1700000x1_0 (edgeWeight e)))

/-- The messages summed at their targets, plus the bias. -/
def summed (h : (⟨S100000x64, .f32⟩ : BufTy).Contents (Elt F)) (e : (⟨S2x1600000, .i32⟩ : BufTy).Contents (Elt F))
    (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32))
      (broadcastInDim S1700000x1 ![0] bcast_S1700000_S1700000x1_0 (targets e)) (messages h e))
    (broadcastInDim S100000x64 ![0, 1] bcast_S1x64_S100000x64_0_1 (broadcastInDim S1x64 ![1] bcast_S64_S1x64_1 b))

/-- The node embeddings: the leaky rectifier of the sums. -/
def embedding (h : (⟨S100000x64, .f32⟩ : BufTy).Contents (Elt F)) (e : (⟨S2x1600000, .i32⟩ : BufTy).Contents (Elt F))
    (b : (⟨S64, .f32⟩ : BufTy).Contents (Elt F)) : (⟨S100000x64, .f32⟩ : BufTy).Contents (Elt F) :=
  select (cmpf .oge (summed h e b) (broadcastInDim S100000x64 ![] bcast_S_S100000x64 (constant S_ .f32 0x00000000#32))) (summed h e b)
    (mulf (broadcastInDim S100000x64 ![] bcast_S_S100000x64 (constant S_ .f32 0x3C23D70A#32)) (summed h e b))

/-- Queried node numbers as gather indices: a negative one counted from the end. -/
def queryFromEnd (v : (⟨S16384, .i32⟩ : BufTy).Contents (Elt F)) : (⟨S16384x1, .i32⟩ : BufTy).Contents (Elt F) :=
  broadcastInDim S16384x1 ![0] bcast_S16384_S16384x1_0
    (select (cmpi .slt v (broadcastInDim S16384 ![] bcast_S_S16384 (constantI S_ 32 0#32)))
      (addi v (broadcastInDim S16384 ![] bcast_S_S16384 (constantI S_ 32 100000#32))) v)

/-- The embeddings of every queried pair's first node. -/
def firstRows (E : (⟨S100000x64, .f32⟩ : BufTy).Contents (Elt F)) (p : (⟨S16384x2, .i32⟩ : BufTy).Contents (Elt F)) :
    (⟨S16384x64, .f32⟩ : BufTy).Contents (Elt F) :=
  Host.gather gather_S100000x64_S16384x1_S16384x64_1_0_n_n_0_1_164 E
    (queryFromEnd (shapeCast S16384 (extractStridedSlice S16384x1 ![0, 0] p slices_S16384x2_S16384x1_0_0) shapeCasts_S16384x1_S16384))

/-- The embeddings of every queried pair's second node. -/
def secondRows (E : (⟨S100000x64, .f32⟩ : BufTy).Contents (Elt F)) (p : (⟨S16384x2, .i32⟩ : BufTy).Contents (Elt F)) :
    (⟨S16384x64, .f32⟩ : BufTy).Contents (Elt F) :=
  Host.gather gather_S100000x64_S16384x1_S16384x64_1_0_n_n_0_1_164 E
    (queryFromEnd (shapeCast S16384 (extractStridedSlice S16384x1 ![0, 1] p slices_S16384x2_S16384x1_0_1) shapeCasts_S16384x1_S16384))

end Cert.KernelIdeal.Aggregate

end
-- ==== Proof.Between.lean ====
/-
  What the second region finds: its two embedding blocks are the queried pairs' rows of the node embeddings computed from
  the first region's array, and its four parameter arrays are as launched. Read off the host operations between the
  two regions, for any float family.
-/
import proofs.«152402_j10050223473070_1_alg».proof.Proof.Gen.KernelIdeal.Frame
import proofs.«152402_j10050223473070_1_alg».proof.Proof.Aggregate
import Idealize.ShloMosaic.Lib.StableHlo.Run

set_option maxRecDepth 16384

noncomputable section

namespace Cert.KernelIdeal.Between

open Cert.KernelIdeal Cert.KernelIdeal.Gen Cert.KernelIdeal.Aggregate
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The first region writes neither the edge list, the queried pairs nor the bias. -/
theorem edges_kept (c : Dev nD) : W1 m ρ c (Proc.devRef .tc main_arg1) = m ((c : Thread nD τ).loc main_arg1) :=
  W1_of_ne m ρ c main_arg1 (by decide)
theorem pairs_kept (c : Dev nD) : W1 m ρ c (Proc.devRef .tc main_arg2) = m ((c : Thread nD τ).loc main_arg2) :=
  W1_of_ne m ρ c main_arg2 (by decide)
theorem bias_kept (c : Dev nD) : W1 m ρ c (Proc.devRef .tc main_arg4) = m ((c : Thread nD τ).loc main_arg4) :=
  W1_of_ne m ρ c main_arg4 (by decide)

set_option maxHeartbeats 4000000 in
/-- The first embedding block: the first nodes' rows of the embeddings of the first region's array. -/
theorem first_block (c : Dev nD) :
    W6 m ρ c (Proc.devRef .tc main_v62)
      = firstRows (embedding (W1 m ρ c (Proc.devRef .tc main_v0)) (W1 m ρ c (Proc.devRef .tc main_arg1)) (W1 m ρ c (Proc.devRef .tc main_arg4)))
          (W1 m ρ c (Proc.devRef .tc main_arg2)) := by
  dsimp only [W6, W5, W4, W3, W2]
  after_results_simp
  simp only [TRef.ofBuf, TRef.toBuf, cast_eq]
  rfl

set_option maxHeartbeats 4000000 in
/-- The second embedding block: the second nodes' rows. -/
theorem second_block (c : Dev nD) :
    W6 m ρ c (Proc.devRef .tc main_v69)
      = secondRows (embedding (W1 m ρ c (Proc.devRef .tc main_v0)) (W1 m ρ c (Proc.devRef .tc main_arg1)) (W1 m ρ c (Proc.devRef .tc main_arg4)))
          (W1 m ρ c (Proc.devRef .tc main_arg2)) := by
  dsimp only [W6, W5, W4, W3, W2]
  after_results_simp
  simp only [TRef.ofBuf, TRef.toBuf, cast_eq]
  rfl

/-- The head's parameters reach the second region as launched: it reads them through input windows, so the array the
    region leaves is the array it found, and the frame reads that back to the launch. -/
theorem w1_kept (c : Dev nD) : V6 m ρ c main_arg5 = m ((c : Thread nD τ).loc main_arg5) :=
  ((W7_arr m ρ c 2).trans (((dat1 (V6 m ρ) c).arrAt_in 2 rfl _).trans (A_eq1 (V6 m ρ) c 2))).symm.trans (W7_main_arg5 m ρ c)
theorem b1_kept (c : Dev nD) : V6 m ρ c main_arg6 = m ((c : Thread nD τ).loc main_arg6) :=
  ((W7_arr m ρ c 3).trans (((dat1 (V6 m ρ) c).arrAt_in 3 rfl _).trans (A_eq1 (V6 m ρ) c 3))).symm.trans (W7_main_arg6 m ρ c)
theorem w2_kept (c : Dev nD) : V6 m ρ c main_arg7 = m ((c : Thread nD τ).loc main_arg7) :=
  ((W7_arr m ρ c 4).trans (((dat1 (V6 m ρ) c).arrAt_in 4 rfl _).trans (A_eq1 (V6 m ρ) c 4))).symm.trans (W7_main_arg7 m ρ c)
theorem b2_kept (c : Dev nD) : V6 m ρ c main_arg8 = m ((c : Thread nD τ).loc main_arg8) :=
  ((W7_arr m ρ c 5).trans (((dat1 (V6 m ρ) c).arrAt_in 5 rfl _).trans (A_eq1 (V6 m ρ) c 5))).symm.trans (W7_main_arg8 m ρ c)

end Cert.KernelIdeal.Between

end
-- ==== Proof.Head.lean ====
/-
  The head on one block of queried pairs. A row of the block joins the first node's 64 embedding entries with the second
  node's into 128; the hidden layer is that row times the first weight matrix plus its bias, 16 entries, each passed
  through the leaky rectifier (slope 0.01 below zero); the score is the hidden row times the second weight column plus
  its bias, passed through the logistic function. Changes of float format are the identity on extended reals and each
  product starts from a zero accumulator, so each is the plain sum over its middle index.
-/
import proofs.«152402_j10050223473070_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head

open Cert.KernelIdeal Cert.KernelIdeal.Gen Idealize.ShloMosaic Idealize.ShloMosaic.TcCoe Idealize.SL.Sem Idealize.ShloMosaic.ValueIdx
open Idealize.ShloMosaic.Pipeline (Dat)

/-! ## One pair's score from its two embedding rows -/

/-- The two 64-entry rows side by side. -/
def joined (a b : Fin 64 → EReal) (j : Fin 128) : EReal :=
  if h : j.val < 64 then a ⟨j.val, h⟩ else b ⟨j.val - 64, by omega⟩

/-- The leaky rectifier as the programs spell it: `z` where `z ≥ 0`, else the slope word times `z`. -/
def leaky (z : EReal) : EReal :=
  Scalar.select (FloatOps.cmpf (F := Ideal) (φ := .f32) .oge z (FloatOps.ofBits (F := Ideal) .f32 0x00000000#32)) z
    (FloatOps.mulf (F := Ideal) (φ := .f32) (FloatOps.ofBits (F := Ideal) .f32 0x3C23D70A#32) z)

/-- Entry `k` of the hidden layer before the rectifier. -/
def hidden (a b : Fin 64 → EReal) (w1 : S128x16.Idx → EReal) (b1 : S16.Idx → EReal) (k : Fin 16) : EReal :=
  (∑ j : Fin 128, joined a b j * w1 (ix2 j k)) + b1 (ix1 k)

/-- The pair's score. -/
def score (a b : Fin 64 → EReal) (w1 : S128x16.Idx → EReal) (b1 : S16.Idx → EReal) (w2 : S16x1.Idx → EReal) (b2 : S1.Idx → EReal) : EReal :=
  Ideal.logistic ((∑ k : Fin 16, leaky (hidden a b w1 b1 k) * w2 (ix2 k (0 : Fin 1))) + b2 (ix1 (0 : Fin 1)))

/-! ## The block's two products as sums -/

theorem first_lhs_row (i : S2048x16.Idx) (q : dot_S2048x128_S128x16_S2048x16_1_0_0_1_n_n.contr.Idx) : (dot_S2048x128_S128x16_S2048x16_1_0_0_1_n_n.lhsIdx i q 0).val = (i 0).val := by
  unfold DotDims.lhsIdx
  rw [dif_neg (show ¬(0 : Fin S2048x128.rank) ∈ dot_S2048x128_S128x16_S2048x16_1_0_0_1_n_n.lhsBatch by decide), dif_pos (show (0 : Fin S2048x128.rank) ∈ dot_S2048x128_S128x16_S2048x16_1_0_0_1_n_n.lhsNonContracting by decide)]
  rfl
theorem first_lhs_mid (i : S2048x16.Idx) (q : dot_S2048x128_S128x16_S2048x16_1_0_0_1_n_n.contr.Idx) : (dot_S2048x128_S128x16_S2048x16_1_0_0_1_n_n.lhsIdx i q 1).val = (q ⟨0, by decide⟩).val :=
  dot_S2048x128_S128x16_S2048x16_1_0_0_1_n_n.lhsIdx_val_of_single rfl i q
theorem first_rhs_mid (i : S2048x16.Idx) (q : dot_S2048x128_S128x16_S2048x16_1_0_0_1_n_n.contr.Idx) : (dot_S2048x128_S128x16_S2048x16_1_0_0_1_n_n.rhsIdx i q 0).val = (q ⟨0, by decide⟩).val :=
  dot_S2048x128_S128x16_S2048x16_1_0_0_1_n_n.rhsIdx_val_of_single rfl i q
theorem first_rhs_col (i : S2048x16.Idx) (q : dot_S2048x128_S128x16_S2048x16_1_0_0_1_n_n.contr.Idx) : (dot_S2048x128_S128x16_S2048x16_1_0_0_1_n_n.rhsIdx i q 1).val = (i 1).val := by
  unfold DotDims.rhsIdx
  rw [dif_neg (show ¬(1 : Fin S128x16.rank) ∈ dot_S2048x128_S128x16_S2048x16_1_0_0_1_n_n.rhsBatch by decide), dif_pos (show (1 : Fin S128x16.rank) ∈ dot_S2048x128_S128x16_S2048x16_1_0_0_1_n_n.rhsNonContracting by decide)]
  rfl

/-- The product into a zero accumulator, at row `r` and column `c`, is the plain sum over the 128 middle indices. -/
theorem first_entry (u : FVec Ideal S2048x128 .bf16) (w : FVec Ideal S128x16 .bf16) (r : Fin 2048) (c : Fin 16) :
    FloatOps.matmul dot_S2048x128_S128x16_S2048x16_1_0_0_1_n_n none u w (constant S2048x16 .f32 0x00000000#32) (ix2 r c) = ∑ k : Fin 128, u (ix2 r k) * w (ix2 k c) := by
  rw [Ideal.matmul_constant_zero_apply, ← Equiv.sum_comp (ValueIdx.contrEquiv1 dot_S2048x128_S128x16_S2048x16_1_0_0_1_n_n 128 rfl rfl).symm]
  refine Finset.sum_congr rfl fun k _ => ?_
  have hk := ValueIdx.contrEquiv1_symm_val dot_S2048x128_S128x16_S2048x16_1_0_0_1_n_n 128 rfl rfl k
  have el : dot_S2048x128_S128x16_S2048x16_1_0_0_1_n_n.lhsIdx (ix2 r c) ((ValueIdx.contrEquiv1 dot_S2048x128_S128x16_S2048x16_1_0_0_1_n_n 128 rfl rfl).symm k) = (ix2 r k : S2048x128.Idx) := funext fun a => Fin.ext (by
    match a with
    | ⟨0, _⟩ => exact first_lhs_row _ _
    | ⟨1, _⟩ => exact (first_lhs_mid _ _).trans hk)
  have er : dot_S2048x128_S128x16_S2048x16_1_0_0_1_n_n.rhsIdx (ix2 r c) ((ValueIdx.contrEquiv1 dot_S2048x128_S128x16_S2048x16_1_0_0_1_n_n 128 rfl rfl).symm k) = (ix2 k c : S128x16.Idx) := funext fun a => Fin.ext (by
    match a with
    | ⟨0, _⟩ => exact (first_rhs_mid _ _).trans hk
    | ⟨1, _⟩ => exact first_rhs_col _ _)
  rw [el, er]

theorem second_lhs_row (i : S2048x1.Idx) (q : dot_S2048x16_S16x1_S2048x1_1_0_0_1_n_n.contr.Idx) : (dot_S2048x16_S16x1_S2048x1_1_0_0_1_n_n.lhsIdx i q 0).val = (i 0).val := by
  unfold DotDims.lhsIdx
  rw [dif_neg (show ¬(0 : Fin S2048x16.rank) ∈ dot_S2048x16_S16x1_S2048x1_1_0_0_1_n_n.lhsBatch by decide), dif_pos (show (0 : Fin S2048x16.rank) ∈ dot_S2048x16_S16x1_S2048x1_1_0_0_1_n_n.lhsNonContracting by decide)]
  rfl
theorem second_lhs_mid (i : S2048x1.Idx) (q : dot_S2048x16_S16x1_S2048x1_1_0_0_1_n_n.contr.Idx) : (dot_S2048x16_S16x1_S2048x1_1_0_0_1_n_n.lhsIdx i q 1).val = (q ⟨0, by decide⟩).val :=
  dot_S2048x16_S16x1_S2048x1_1_0_0_1_n_n.lhsIdx_val_of_single rfl i q
theorem second_rhs_mid (i : S2048x1.Idx) (q : dot_S2048x16_S16x1_S2048x1_1_0_0_1_n_n.contr.Idx) : (dot_S2048x16_S16x1_S2048x1_1_0_0_1_n_n.rhsIdx i q 0).val = (q ⟨0, by decide⟩).val :=
  dot_S2048x16_S16x1_S2048x1_1_0_0_1_n_n.rhsIdx_val_of_single rfl i q
theorem second_rhs_col (i : S2048x1.Idx) (q : dot_S2048x16_S16x1_S2048x1_1_0_0_1_n_n.contr.Idx) : (dot_S2048x16_S16x1_S2048x1_1_0_0_1_n_n.rhsIdx i q 1).val = (i 1).val := by
  unfold DotDims.rhsIdx
  rw [dif_neg (show ¬(1 : Fin S16x1.rank) ∈ dot_S2048x16_S16x1_S2048x1_1_0_0_1_n_n.rhsBatch by decide), dif_pos (show (1 : Fin S16x1.rank) ∈ dot_S2048x16_S16x1_S2048x1_1_0_0_1_n_n.rhsNonContracting by decide)]
  rfl

/-- The product into a zero accumulator, at row `r` and column `c`, is the plain sum over the 16 middle indices. -/
theorem second_entry (u : FVec Ideal S2048x16 .bf16) (w : FVec Ideal S16x1 .bf16) (r : Fin 2048) (c : Fin 1) :
    FloatOps.matmul dot_S2048x16_S16x1_S2048x1_1_0_0_1_n_n none u w (constant S2048x1 .f32 0x00000000#32) (ix2 r c) = ∑ k : Fin 16, u (ix2 r k) * w (ix2 k c) := by
  rw [Ideal.matmul_constant_zero_apply, ← Equiv.sum_comp (ValueIdx.contrEquiv1 dot_S2048x16_S16x1_S2048x1_1_0_0_1_n_n 16 rfl rfl).symm]
  refine Finset.sum_congr rfl fun k _ => ?_
  have hk := ValueIdx.contrEquiv1_symm_val dot_S2048x16_S16x1_S2048x1_1_0_0_1_n_n 16 rfl rfl k
  have el : dot_S2048x16_S16x1_S2048x1_1_0_0_1_n_n.lhsIdx (ix2 r c) ((ValueIdx.contrEquiv1 dot_S2048x16_S16x1_S2048x1_1_0_0_1_n_n 16 rfl rfl).symm k) = (ix2 r k : S2048x16.Idx) := funext fun a => Fin.ext (by
    match a with
    | ⟨0, _⟩ => exact second_lhs_row _ _
    | ⟨1, _⟩ => exact (second_lhs_mid _ _).trans hk)
  have er : dot_S2048x16_S16x1_S2048x1_1_0_0_1_n_n.rhsIdx (ix2 r c) ((ValueIdx.contrEquiv1 dot_S2048x16_S16x1_S2048x1_1_0_0_1_n_n 16 rfl rfl).symm k) = (ix2 k c : S16x1.Idx) := funext fun a => Fin.ext (by
    match a with
    | ⟨0, _⟩ => exact (second_rhs_mid _ _).trans hk
    | ⟨1, _⟩ => exact second_rhs_col _ _)
  rw [el, er]

/-! ## The block's other operations at an entry -/

/-- Two 64-column blocks joined along the columns, read at row `r`, column `j`. -/
theorem joined_entry (a b : S2048x64.Idx → EReal) (r : Fin 2048) (j : Fin 128) :
    concatenate S2048x128 1 [⟨S2048x64, a⟩, ⟨S2048x64, b⟩] concatenates_S2048x64_S2048x64_S2048x128_d1 (ix2 r j)
      = joined (fun f => a (ix2 r f)) (fun f => b (ix2 r f)) j := by
  unfold joined
  by_cases h : j.val < 64
  · rw [dif_pos h]
    exact concatenate_pair_apply_left (1 : Fin S2048x128.rank) a b concatenates_S2048x64_S2048x64_S2048x128_d1 (ix2 r j) rfl
      (ix2 r ⟨j.val, h⟩) (fun ax => by match ax with | ⟨0, _⟩ => rfl | ⟨1, _⟩ => rfl)
  · rw [dif_neg h]
    have hj : j.val < 128 := j.isLt
    exact concatenate_pair_apply_right (1 : Fin S2048x128.rank) a b concatenates_S2048x64_S2048x64_S2048x128_d1 (ix2 r j) rfl rfl
      (ix2 r ⟨j.val - 64, by omega⟩) (fun ax hne => by match ax with | ⟨0, _⟩ => rfl | ⟨1, _⟩ => exact absurd rfl hne)
      (by show (j.val - 64) + 64 = j.val; omega)

/-- The hidden layer's bias, a 16-vector laid along every row. -/
theorem bias1_entry (b1 : S16.Idx → EReal) (r : Fin 2048) (k : Fin 16) :
    broadcastTo S2048x16 (shapeCast S1x16 b1 shapeCasts_S16_S1x16) broadcasts_S1x16_S2048x16 (ix2 r k) = b1 (ix1 k) :=
  (broadcastTo_1b_ab_apply _ broadcasts_S1x16_S2048x16 r k).trans (shapeCast_a_1a_apply b1 shapeCasts_S16_S1x16 0 k)

/-- The score's bias, one number laid along every row. -/
theorem bias2_entry (b2 : S1.Idx → EReal) (r : Fin 2048) :
    broadcastTo S2048x1 (shapeCast S1x1 b2 shapeCasts_S1_S1x1) broadcasts_S1x1_S2048x1 (ix2 r (0 : Fin 1)) = b2 (ix1 (0 : Fin 1)) :=
  (broadcastTo_1b_ab_apply _ broadcasts_S1x1_S2048x1 r 0).trans (shapeCast_a_1a_apply b2 shapeCasts_S1_S1x1 0 0)

/-- The rectifier step on a whole block, then the change of format, at an entry. -/
theorem leaky_entry (H : FVec Ideal S2048x16 .f32) (i : S2048x16.Idx) :
    truncf .bf16 (select (cmpf .oge H (broadcast S2048x16 (FloatOps.ofBits .f32 0x00000000#32))) H
      (mulf (broadcast S2048x16 (FloatOps.ofBits .f32 0x3C23D70A#32)) H)) bitsLt_bf16_f32 i = leaky (H i) := rfl

/-- The hidden layer before the rectifier, at row `r`, entry `k`, from the two blocks' rows. -/
theorem hidden_entry (x0 x2 : Vec Ideal S2048x64 .f32) (x6 : Vec Ideal S128x16 .f32) (x9 : Vec Ideal S16 .f32) (r : Fin 2048) (k : Fin 16) :
    addf (F := Ideal) (FloatOps.matmul (F := Ideal) dot_S2048x128_S128x16_S2048x16_1_0_0_1_n_n none
        (truncf .bf16 (concatenate S2048x128 1 [⟨S2048x64, shapeCast S2048x64 x0 shapeCasts_S2048x64_S2048x64⟩, ⟨S2048x64, shapeCast S2048x64 x2 shapeCasts_S2048x64_S2048x64⟩] concatenates_S2048x64_S2048x64_S2048x128_d1) bitsLt_bf16_f32)
        (truncf .bf16 x6 bitsLt_bf16_f32) (constant (F := Ideal) S2048x16 .f32 0x00000000#32))
      (broadcastTo S2048x16 (shapeCast S1x16 x9 shapeCasts_S16_S1x16) broadcasts_S1x16_S2048x16) (ix2 r k)
      = hidden (fun f => x0 (ix2 r f)) (fun f => x2 (ix2 r f)) x6 x9 k := by
  unfold hidden
  show FloatOps.matmul (F := Ideal) dot_S2048x128_S128x16_S2048x16_1_0_0_1_n_n none _ _ _ (ix2 r k) + broadcastTo S2048x16 _ broadcasts_S1x16_S2048x16 (ix2 r k) = _
  rw [first_entry, bias1_entry, shapeCast_self, shapeCast_self]
  refine congrArg (· + x9 (ix1 k)) (Finset.sum_congr rfl fun j _ => ?_)
  exact congrArg (· * x6 (ix2 j k)) (joined_entry x0 x2 r j)

/-- What the body stores at row `r` of its block: the score of the two input blocks' rows `r`. -/
theorem block_score (x0 x2 : Vec Ideal S2048x64 .f32) (x6 : Vec Ideal S128x16 .f32) (x9 : Vec Ideal S16 .f32)
    (x19 : Vec Ideal S16x1 .f32) (x22 : Vec Ideal S1 .f32) (r : Fin 2048) :
    k1_pay1 (F := Ideal) x0 x2 x6 x9 x19 x22 (ix2 r (0 : Fin 1))
      = score (fun f => x0 (ix2 r f)) (fun f => x2 (ix2 r f)) x6 x9 x19 x22 := by
  unfold k1_pay1 score
  show Ideal.logistic (FloatOps.matmul (F := Ideal) dot_S2048x16_S16x1_S2048x1_1_0_0_1_n_n none _ _ _ (ix2 r (0 : Fin 1))
    + broadcastTo S2048x1 _ broadcasts_S1x1_S2048x1 (ix2 r (0 : Fin 1))) = _
  rw [second_entry, bias2_entry]
  refine congrArg (fun z => Ideal.logistic (z + x22 (ix1 (0 : Fin 1)))) (Finset.sum_congr rfl fun k _ => ?_)
  refine congrArg (· * x19 (ix2 k (0 : Fin 1))) ?_
  exact (leaky_entry _ (ix2 r k)).trans (congrArg leaky (hidden_entry x0 x2 x6 x9 r k))

/-! ## From the blocks to the array of scores -/

variable (V : (c : Dev nD) → (b : Ref sig .tc) → Buf (Elt Ideal) ((c : Thread nD τ).loc b))

/-- The six arrays the second region reads, as it finds them, at their literal types. -/
abbrev firstArr (c : Dev nD) : (⟨S16384x64, .f32⟩ : BufTy).Contents (Elt Ideal) := V c main_v62
abbrev secondArr (c : Dev nD) : (⟨S16384x64, .f32⟩ : BufTy).Contents (Elt Ideal) := V c main_v69
abbrev w1Arr (c : Dev nD) : (⟨S128x16, .f32⟩ : BufTy).Contents (Elt Ideal) := V c main_arg5
abbrev b1Arr (c : Dev nD) : (⟨S16, .f32⟩ : BufTy).Contents (Elt Ideal) := V c main_arg6
abbrev w2Arr (c : Dev nD) : (⟨S16x1, .f32⟩ : BufTy).Contents (Elt Ideal) := V c main_arg7
abbrev b2Arr (c : Dev nD) : (⟨S1, .f32⟩ : BufTy).Contents (Elt Ideal) := V c main_arg8

/-- Every queried pair's score from the two arrays of embedding rows and the head's parameters. -/
def scores (xi xj : (⟨S16384x64, .f32⟩ : BufTy).Contents (Elt Ideal)) (w1 : (⟨S128x16, .f32⟩ : BufTy).Contents (Elt Ideal))
    (b1 : (⟨S16, .f32⟩ : BufTy).Contents (Elt Ideal)) (w2 : (⟨S16x1, .f32⟩ : BufTy).Contents (Elt Ideal))
    (b2 : (⟨S1, .f32⟩ : BufTy).Contents (Elt Ideal)) : (⟨S16384x1, .f32⟩ : BufTy).Contents (Elt Ideal) :=
  fun i => score (fun f => xi (ix2 (⟨(i 0).val, (i 0).isLt⟩ : Fin 16384) f)) (fun f => xj (ix2 (⟨(i 0).val, (i 0).isLt⟩ : Fin 16384) f)) w1 b1 w2 b2

theorem origin2 : (![0, 0] : Fin 2 → Nat) = fun _ => 0 := funext fun a => by fin_cases a <;> rfl
theorem origin1 : (![0] : Fin 1 → Nat) = fun _ => 0 := funext fun a => by fin_cases a; rfl

/-- The printed index maps over the grid: the two embedding blocks and the output block move down the rows with the
    point's number, the four parameter windows stay. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The six input blocks at a point, at their literal types. -/
abbrev blkFirst (c : Dev nD) (t : Fin cfg1.N) : Vec Ideal S2048x64 .f32 := iblk1 V c 0 t
abbrev blkSecond (c : Dev nD) (t : Fin cfg1.N) : Vec Ideal S2048x64 .f32 := iblk1 V c 1 t
abbrev blkW1 (c : Dev nD) (t : Fin cfg1.N) : Vec Ideal S128x16 .f32 := iblk1 V c 2 t
abbrev blkB1 (c : Dev nD) (t : Fin cfg1.N) : Vec Ideal S16 .f32 := iblk1 V c 3 t
abbrev blkW2 (c : Dev nD) (t : Fin cfg1.N) : Vec Ideal S16x1 .f32 := iblk1 V c 4 t
abbrev blkB2 (c : Dev nD) (t : Fin cfg1.N) : Vec Ideal S1 .f32 := iblk1 V c 5 t

/-- Row `r` of point `t`'s block is row 2048·t + r of the array. -/
theorem row_lt (t : Fin cfg1.N) (r : Fin 2048) : t.val * 2048 + r.val < 16384 := by
  have hN : cfg1.N = 8 := N_1
  have := t.isLt; have := r.isLt; omega

theorem first_read (c : Dev nD) (t : Fin cfg1.N) (r : Fin 2048) (f : Fin 64) :
    blkFirst V c t (ix2 r f) = firstArr V c (ix2 (⟨t.val * 2048 + r.val, row_lt t r⟩ : Fin 16384) f) := by
  obtain ⟨e00, e01, e10, e11, e20, e21, e30, e40, e41, e50, e60, e61⟩ := block_indices t
  show firstArr V c (((cfg1.win 0).blk t).view.emb (ix2 r f)) = _
  refine congrArg (firstArr V c) (funext fun a => Fin.ext ?_)
  match a with
  | ⟨0, _⟩ => show win1_0.index t (0 : Fin 2) * 2048 + 1 * r.val = t.val * 2048 + r.val; omega
  | ⟨1, _⟩ => show win1_0.index t (1 : Fin 2) * 64 + 1 * f.val = f.val; omega

theorem second_read (c : Dev nD) (t : Fin cfg1.N) (r : Fin 2048) (f : Fin 64) :
    blkSecond V c t (ix2 r f) = secondArr V c (ix2 (⟨t.val * 2048 + r.val, row_lt t r⟩ : Fin 16384) f) := by
  obtain ⟨e00, e01, e10, e11, e20, e21, e30, e40, e41, e50, e60, e61⟩ := block_indices t
  show secondArr V c (((cfg1.win 1).blk t).view.emb (ix2 r f)) = _
  refine congrArg (secondArr V c) (funext fun a => Fin.ext ?_)
  match a with
  | ⟨0, _⟩ => show win1_1.index t (0 : Fin 2) * 2048 + 1 * r.val = t.val * 2048 + r.val; omega
  | ⟨1, _⟩ => show win1_1.index t (1 : Fin 2) * 64 + 1 * f.val = f.val; omega

/-- The four parameter windows hold their whole arrays at every point. -/
theorem w1_read (c : Dev nD) (t : Fin cfg1.N) : blkW1 V c t = w1Arr V c := by
  obtain ⟨e00, e01, e10, e11, e20, e21, e30, e40, e41, e50, e60, e61⟩ := block_indices t
  funext y
  show w1Arr V c (((cfg1.win 2).blk t).view.emb y) = _
  refine congrArg (w1Arr V c) (funext fun a => Fin.ext ?_)
  match a with
  | ⟨0, _⟩ => show win1_2.index t (0 : Fin 2) * 128 + 1 * (y 0).val = (y 0).val; omega
  | ⟨1, _⟩ => show win1_2.index t (1 : Fin 2) * 16 + 1 * (y 1).val = (y 1).val; omega
theorem b1_read (c : Dev nD) (t : Fin cfg1.N) : blkB1 V c t = b1Arr V c := by
  obtain ⟨e00, e01, e10, e11, e20, e21, e30, e40, e41, e50, e60, e61⟩ := block_indices t
  funext y
  show b1Arr V c (((cfg1.win 3).blk t).view.emb y) = _
  refine congrArg (b1Arr V c) (funext fun a => Fin.ext ?_)
  match a with
  | ⟨0, _⟩ => show win1_3.index t (0 : Fin 1) * 16 + 1 * (y 0).val = (y 0).val; omega
theorem w2_read (c : Dev nD) (t : Fin cfg1.N) : blkW2 V c t = w2Arr V c := by
  obtain ⟨e00, e01, e10, e11, e20, e21, e30, e40, e41, e50, e60, e61⟩ := block_indices t
  funext y
  show w2Arr V c (((cfg1.win 4).blk t).view.emb y) = _
  refine congrArg (w2Arr V c) (funext fun a => Fin.ext ?_)
  match a with
  | ⟨0, _⟩ => show win1_4.index t (0 : Fin 2) * 16 + 1 * (y 0).val = (y 0).val; omega
  | ⟨1, _⟩ => show win1_4.index t (1 : Fin 2) * 1 + 1 * (y 1).val = (y 1).val; omega
theorem b2_read (c : Dev nD) (t : Fin cfg1.N) : blkB2 V c t = b2Arr V c := by
  obtain ⟨e00, e01, e10, e11, e20, e21, e30, e40, e41, e50, e60, e61⟩ := block_indices t
  funext y
  show b2Arr V c (((cfg1.win 5).blk t).view.emb y) = _
  refine congrArg (b2Arr V c) (funext fun a => Fin.ext ?_)
  match a with
  | ⟨0, _⟩ => show win1_5.index t (0 : Fin 1) * 1 + 1 * (y 0).val = (y 0).val; omega

/-- Row `r` of point `t`'s output block sits at row 2048·t + r of the result array. -/
theorem out_row (t : Fin cfg1.N) (r : Fin 2048) :
    (⟨((((cfg1.win 6).blk t).view.emb (ix2 r (0 : Fin 1))) 0).val, ((((cfg1.win 6).blk t).view.emb (ix2 r (0 : Fin 1))) 0).isLt⟩ : Fin 16384)
      = ⟨t.val * 2048 + r.val, row_lt t r⟩ := by
  obtain ⟨e00, e01, e10, e11, e20, e21, e30, e40, e41, e50, e60, e61⟩ := block_indices t
  apply Fin.ext
  show win1_6.index t (0 : Fin 2) * 2048 + 1 * r.val = t.val * 2048 + r.val
  omega

set_option maxHeartbeats 1000000 in
/-- What point `t` writes back is block `t` of the scores of the arrays the region finds. -/
theorem flushed_eq (c : Dev nD) (t : Fin cfg1.N) :
    (dat1 V c).flushed 6 t = ((cfg1.win 6).blk t).view.read (Elt Ideal)
      (scores (firstArr V c) (secondArr V c) (w1Arr V c) (b1Arr V c) (w2Arr V c) (b2Arr V c)) := by
  show (cfg1.win 6).cut (grid1.coords t) ((dat1 V c).after 6 t) = _
  rw [after1_6]
  unfold out1_6
  rw [View.canon_unit_zero origin2]
  simp only [View.ld_unit_zero (S := S2048x64) origin2, View.ld_unit_zero (S := S128x16) origin2, View.ld_unit_zero (S := S16) origin1,
    View.ld_unit_zero (S := S16x1) origin2, View.ld_unit_zero (S := S1) origin1]
  funext j
  obtain ⟨r, z, rfl⟩ : ∃ (r : Fin 2048) (z : Fin 1), j = ix2 r z := ⟨j 0, j 1, eq_ix2 j⟩
  obtain rfl : z = 0 := Subsingleton.elim _ _
  refine (block_score (blkFirst V c t) (blkSecond V c t) (blkW1 V c t) (blkB1 V c t) (blkW2 V c t) (blkB2 V c t) r).trans ?_
  rw [w1_read, b1_read, w2_read, b2_read]
  simp only [first_read, second_read]
  show _ = scores (firstArr V c) (secondArr V c) (w1Arr V c) (b1Arr V c) (w2Arr V c) (b2Arr V c) (((cfg1.win 6).blk t).view.emb (ix2 r (0 : Fin 1)))
  unfold scores
  rw [out_row]

/-- An index of the array is in point `t`'s block iff each coordinate is in the block's range on its axis. -/
theorem mem_block (t : Fin cfg1.N) (i : S16384x1.Idx) :
    i ∈ ((cfg1.win 6).blk t).view.set ↔ ∀ a : Fin 2, win1_6.index t a * S2048x1.size a ≤ (i a).val ∧ (i a).val < win1_6.index t a * S2048x1.size a + S2048x1.size a := by
  show i ∈ ((View.whole main_v70).slice (win1_6.rect t)).set ↔ _
  rw [View.set_slice_whole, Rect.mem_set_unit]
  exact Iff.rfl

/-- Every pair's row is in the block of the point numbered by the row's quotient by 2048. -/
theorem covered (i : S16384x1.Idx) : ∃ t : Fin cfg1.N, (cfg1.win 6).flush t = true ∧ i ∈ ((cfg1.win 6).blk t).view.set := by
  have hi0 : (i 0).val < 16384 := (i 0).isLt
  have hi1 : (i 1).val < 1 := (i 1).isLt
  have hN : cfg1.N = 8 := N_1
  let t : Fin cfg1.N := ⟨(i 0).val / 2048, by rw [hN]; omega⟩
  obtain ⟨e00, e01, e10, e11, e20, e21, e30, e40, e41, e50, e60, e61⟩ := block_indices t
  have e60' : win1_6.index t (0 : Fin 2) = (i 0).val / 2048 := e60
  refine ⟨t, flush1_6 t, ?_⟩
  rw [mem_block]
  intro a
  match a with
  | ⟨0, _⟩ => show win1_6.index t (0 : Fin 2) * 2048 ≤ (i 0).val ∧ (i 0).val < win1_6.index t (0 : Fin 2) * 2048 + 2048; omega
  | ⟨1, _⟩ => show win1_6.index t (1 : Fin 2) * 1 ≤ (i 1).val ∧ (i 1).val < win1_6.index t (1 : Fin 2) * 1 + 1; omega

/-- The second region's result array after its run is the array of all scores. -/
theorem array_eq (c : Dev nD) : (dat1 V c).arrAt 6 cfg1.N
    = scores (firstArr V c) (secondArr V c) (w1Arr V c) (b1Arr V c) (w2Arr V c) (b2Arr V c) :=
  (dat1 V c).arrAt_eq_of_cover 6 _ (fun t _ => flushed_eq V c t) covered

end Cert.KernelIdeal.Head

end
-- ==== Proof.RefHostRun.lean ====
/-
  The reference program's run. Its @main is one line of host operations, none of which allocates a buffer: every
  weakly fair execution ends with each buffer at the operations' fold over the launch contents. Read at the result
  buffer the fold is the last stage of the program as a function of its arguments; no operation writes an argument,
  so each argument ends as launched.
-/
import proofs.«152402_j10050223473070_1_alg».proof.Proof.RefOps
import proofs.«152402_j10050223473070_1_alg».proof.Proof.RefRead
import Idealize.ShloMosaic.Lib.StableHlo.Run
import Idealize.ShloMosaic.Lib.Pipeline.Frame

set_option maxRecDepth 16384

noncomputable section

namespace Cert.ReferenceIdeal.HostRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- No operation of the line allocates a buffer. -/
theorem ops_fresh : (ops : List (HloOp τ sig (Elt F))).Forall fun op => op.fresh = ∅ := by
  simp only [ops, List.Forall]; repeat' constructor

/-- Every buffer ends at the fold of the operations over the launch contents. -/
theorem every_buffer (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ op h => (List.forall_iff_forall_mem.mp ops_fresh) op h)

/-! The line is cut after the two row gathers: its first 89 operations compute them, its last 24 are the head. -/

theorem ops_cut : (ops : List (HloOp τ sig (Elt F))) = (ops (F := F)).take 89 ++ (ops (F := F)).drop 89 :=
  (List.take_append_drop 89 ops).symm

set_option maxHeartbeats 4000000 in
/-- After the first part the first gather's buffer holds its stage of the launched arguments. -/
theorem first_gather (m : (ℓ : Loc nD τ sig) → Buf (Elt F) ℓ) (c : Dev nD) :
    after ((ops (F := F)).take 89) (launchContents m c) (Proc.devRef .tc main_v60)
      = val_main_v60 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp
  simp only [TRef.ofBuf, TRef.toBuf, cast_eq]
  rfl

set_option maxHeartbeats 4000000 in
/-- And the second gather's buffer its stage. -/
theorem second_gather (m : (ℓ : Loc nD τ sig) → Buf (Elt F) ℓ) (c : Dev nD) :
    after ((ops (F := F)).take 89) (launchContents m c) (Proc.devRef .tc main_v69)
      = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp
  simp only [TRef.ofBuf, TRef.toBuf, cast_eq]
  rfl

/-! The first part writes none of the head's parameters. -/
theorem prefix_arg5 (m : (ℓ : Loc nD τ sig) → Buf (Elt F) ℓ) (c : Dev nD) :
    after ((ops (F := F)).take 89) (launchContents m c) (Proc.devRef .tc main_arg5) = m ((c.tc : Thread nD τ).loc main_arg5) := by
  simp only [ops, List.take_succ_cons, List.take_zero]
  after_results_simp <;> rfl
theorem prefix_arg6 (m : (ℓ : Loc nD τ sig) → Buf (Elt F) ℓ) (c : Dev nD) :
    after ((ops (F := F)).take 89) (launchContents m c) (Proc.devRef .tc main_arg6) = m ((c.tc : Thread nD τ).loc main_arg6) := by
  simp only [ops, List.take_succ_cons, List.take_zero]
  after_results_simp <;> rfl
theorem prefix_arg7 (m : (ℓ : Loc nD τ sig) → Buf (Elt F) ℓ) (c : Dev nD) :
    after ((ops (F := F)).take 89) (launchContents m c) (Proc.devRef .tc main_arg7) = m ((c.tc : Thread nD τ).loc main_arg7) := by
  simp only [ops, List.take_succ_cons, List.take_zero]
  after_results_simp <;> rfl
theorem prefix_arg8 (m : (ℓ : Loc nD τ sig) → Buf (Elt F) ℓ) (c : Dev nD) :
    after ((ops (F := F)).take 89) (launchContents m c) (Proc.devRef .tc main_arg8) = m ((c.tc : Thread nD τ).loc main_arg8) := by
  simp only [ops, List.take_succ_cons, List.take_zero]
  after_results_simp <;> rfl

set_option maxHeartbeats 4000000 in
/-- The head, from any contents that hold the two gathers' stages and the four parameters: the result buffer ends at the
    program's last stage. -/
theorem head_read (W : Valuation τ sig (Elt F))
    (x0 : (⟨S100000x256, .f32⟩ : BufTy).Contents (Elt F)) (x1 : (⟨S2x1600000, .i32⟩ : BufTy).Contents (Elt F))
    (x2 : (⟨S16384x2, .i32⟩ : BufTy).Contents (Elt F)) (x3 : (⟨S256x64, .f32⟩ : BufTy).Contents (Elt F)) (x4 : (⟨S64, .f32⟩ : BufTy).Contents (Elt F))
    (x5 : (⟨S128x16, .f32⟩ : BufTy).Contents (Elt F)) (x6 : (⟨S16, .f32⟩ : BufTy).Contents (Elt F)) (x7 : (⟨S16x1, .f32⟩ : BufTy).Contents (Elt F))
    (x8 : (⟨S1, .f32⟩ : BufTy).Contents (Elt F))
    (h60 : W (Proc.devRef .tc main_v60) = val_main_v60 (F := F) x0 x1 x2 x3 x4) (h69 : W (Proc.devRef .tc main_v69) = val_main_v69 (F := F) x0 x1 x2 x3 x4)
    (h5 : W (Proc.devRef .tc main_arg5) = x5) (h6 : W (Proc.devRef .tc main_arg6) = x6) (h7 : W (Proc.devRef .tc main_arg7) = x7)
    (h8 : W (Proc.devRef .tc main_arg8) = x8) :
    after ((ops (F := F)).drop 89) W (Proc.devRef .tc main_v89) = val_main_v89 (F := F) x0 x1 x2 x3 x4 x5 x6 x7 x8 := by
  simp only [ops, List.drop_succ_cons, List.drop_zero]
  after_results_simp
  simp only [TRef.ofBuf, TRef.toBuf, cast_eq]
  rw [h60, h69, h5, h6, h7, h8]
  rfl

/-- The fold at the result buffer is the program's last stage of the launched arguments. -/
theorem result_value (m : (ℓ : Loc nD τ sig) → Buf (Elt F) ℓ) (c : Dev nD) :
    after (ops (F := F)) (launchContents m c) (Proc.devRef .tc main_v89)
      = val_main_v89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [ops_cut, StableHlo.after_append]
  exact head_read _ _ _ _ _ _ _ _ _ _ (first_gather m c) (second_gather m c) (prefix_arg5 m c) (prefix_arg6 m c) (prefix_arg7 m c) (prefix_arg8 m c)

/-! No operation writes an argument. -/
theorem arg0_kept (m : (ℓ : Loc nD τ sig) → Buf (Elt F) ℓ) (c : Dev nD) :
    after (ops (F := F)) (launchContents m c) (Proc.devRef .tc main_arg0) = m ((c.tc : Thread nD τ).loc main_arg0) :=
  (after_of_forall_not_mem (b := Proc.devRef .tc main_arg0) _ _ (List.forall_iff_forall_mem.mp (by
    simp only [ops, List.Forall, nullary_writes, unary_writes, binary_writes, ternary_writes, quaternary_writes, reshape_writes, Finset.mem_singleton]
    repeat' apply And.intro
    all_goals exact devRef_ne_of_ne (by decide)))).trans rfl
theorem arg1_kept (m : (ℓ : Loc nD τ sig) → Buf (Elt F) ℓ) (c : Dev nD) :
    after (ops (F := F)) (launchContents m c) (Proc.devRef .tc main_arg1) = m ((c.tc : Thread nD τ).loc main_arg1) :=
  (after_of_forall_not_mem (b := Proc.devRef .tc main_arg1) _ _ (List.forall_iff_forall_mem.mp (by
    simp only [ops, List.Forall, nullary_writes, unary_writes, binary_writes, ternary_writes, quaternary_writes, reshape_writes, Finset.mem_singleton]
    repeat' apply And.intro
    all_goals exact devRef_ne_of_ne (by decide)))).trans rfl
theorem arg2_kept (m : (ℓ : Loc nD τ sig) → Buf (Elt F) ℓ) (c : Dev nD) :
    after (ops (F := F)) (launchContents m c) (Proc.devRef .tc main_arg2) = m ((c.tc : Thread nD τ).loc main_arg2) :=
  (after_of_forall_not_mem (b := Proc.devRef .tc main_arg2) _ _ (List.forall_iff_forall_mem.mp (by
    simp only [ops, List.Forall, nullary_writes, unary_writes, binary_writes, ternary_writes, quaternary_writes, reshape_writes, Finset.mem_singleton]
    repeat' apply And.intro
    all_goals exact devRef_ne_of_ne (by decide)))).trans rfl
theorem arg3_kept (m : (ℓ : Loc nD τ sig) → Buf (Elt F) ℓ) (c : Dev nD) :
    after (ops (F := F)) (launchContents m c) (Proc.devRef .tc main_arg3) = m ((c.tc : Thread nD τ).loc main_arg3) :=
  (after_of_forall_not_mem (b := Proc.devRef .tc main_arg3) _ _ (List.forall_iff_forall_mem.mp (by
    simp only [ops, List.Forall, nullary_writes, unary_writes, binary_writes, ternary_writes, quaternary_writes, reshape_writes, Finset.mem_singleton]
    repeat' apply And.intro
    all_goals exact devRef_ne_of_ne (by decide)))).trans rfl
theorem arg4_kept (m : (ℓ : Loc nD τ sig) → Buf (Elt F) ℓ) (c : Dev nD) :
    after (ops (F := F)) (launchContents m c) (Proc.devRef .tc main_arg4) = m ((c.tc : Thread nD τ).loc main_arg4) :=
  (after_of_forall_not_mem (b := Proc.devRef .tc main_arg4) _ _ (List.forall_iff_forall_mem.mp (by
    simp only [ops, List.Forall, nullary_writes, unary_writes, binary_writes, ternary_writes, quaternary_writes, reshape_writes, Finset.mem_singleton]
    repeat' apply And.intro
    all_goals exact devRef_ne_of_ne (by decide)))).trans rfl
theorem arg5_kept (m : (ℓ : Loc nD τ sig) → Buf (Elt F) ℓ) (c : Dev nD) :
    after (ops (F := F)) (launchContents m c) (Proc.devRef .tc main_arg5) = m ((c.tc : Thread nD τ).loc main_arg5) :=
  (after_of_forall_not_mem (b := Proc.devRef .tc main_arg5) _ _ (List.forall_iff_forall_mem.mp (by
    simp only [ops, List.Forall, nullary_writes, unary_writes, binary_writes, ternary_writes, quaternary_writes, reshape_writes, Finset.mem_singleton]
    repeat' apply And.intro
    all_goals exact devRef_ne_of_ne (by decide)))).trans rfl
theorem arg6_kept (m : (ℓ : Loc nD τ sig) → Buf (Elt F) ℓ) (c : Dev nD) :
    after (ops (F := F)) (launchContents m c) (Proc.devRef .tc main_arg6) = m ((c.tc : Thread nD τ).loc main_arg6) :=
  (after_of_forall_not_mem (b := Proc.devRef .tc main_arg6) _ _ (List.forall_iff_forall_mem.mp (by
    simp only [ops, List.Forall, nullary_writes, unary_writes, binary_writes, ternary_writes, quaternary_writes, reshape_writes, Finset.mem_singleton]
    repeat' apply And.intro
    all_goals exact devRef_ne_of_ne (by decide)))).trans rfl
theorem arg7_kept (m : (ℓ : Loc nD τ sig) → Buf (Elt F) ℓ) (c : Dev nD) :
    after (ops (F := F)) (launchContents m c) (Proc.devRef .tc main_arg7) = m ((c.tc : Thread nD τ).loc main_arg7) :=
  (after_of_forall_not_mem (b := Proc.devRef .tc main_arg7) _ _ (List.forall_iff_forall_mem.mp (by
    simp only [ops, List.Forall, nullary_writes, unary_writes, binary_writes, ternary_writes, quaternary_writes, reshape_writes, Finset.mem_singleton]
    repeat' apply And.intro
    all_goals exact devRef_ne_of_ne (by decide)))).trans rfl
theorem arg8_kept (m : (ℓ : Loc nD τ sig) → Buf (Elt F) ℓ) (c : Dev nD) :
    after (ops (F := F)) (launchContents m c) (Proc.devRef .tc main_arg8) = m ((c.tc : Thread nD τ).loc main_arg8) :=
  (after_of_forall_not_mem (b := Proc.devRef .tc main_arg8) _ _ (List.forall_iff_forall_mem.mp (by
    simp only [ops, List.Forall, nullary_writes, unary_writes, binary_writes, ternary_writes, quaternary_writes, reshape_writes, Finset.mem_singleton]
    repeat' apply And.intro
    all_goals exact devRef_ne_of_ne (by decide)))).trans rfl

/-- The run: the result at the last stage of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89)
        = val_main_v89 (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v89).trans (result_value m c),
      (h c main_arg0).trans (arg0_kept m c), (h c main_arg1).trans (arg1_kept m c), (h c main_arg2).trans (arg2_kept m c),
      (h c main_arg3).trans (arg3_kept m c), (h c main_arg4).trans (arg4_kept m c), (h c main_arg5).trans (arg5_kept m c),
      (h c main_arg6).trans (arg6_kept m c), (h c main_arg7).trans (arg7_kept m c), (h c main_arg8).trans (arg8_kept m c)⟩)
    (every_buffer m ρ)

end Cert.ReferenceIdeal.HostRun

end
-- ==== Proof.RefValue.lean ====
/-
  The reference program read as the same functions of its arguments as the kernel's program: its first product is the
  product of the node features with the weights, entry by entry; its node embeddings and the two row gathers are the
  graph convolution of that product; and its last value is every pair's score, the reference's spelled-out
  1 / (1 + exp (−z)) being the logistic function on the extended reals.
-/
import proofs.«152402_j10050223473070_1_alg».proof.Proof.RefRead
import proofs.«152402_j10050223473070_1_alg».proof.Proof.RefHostRun
import proofs.«152402_j10050223473070_1_alg».proof.Proof.Aggregate
import proofs.«152402_j10050223473070_1_alg».proof.Proof.DenseProduct
import proofs.«152402_j10050223473070_1_alg».proof.Proof.Head
import Idealize.ShloMosaic.Lib.IdealHost

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx

/-- The reference's first product, entry by entry, is the sum over the features. -/
theorem trunk_eq (x0 : (⟨S100000x256, .f32⟩ : BufTy).Contents (Elt Ideal)) (x3 : (⟨S256x64, .f32⟩ : BufTy).Contents (Elt Ideal)) :
    val_main_v0 (F := Ideal) x0 x3 = Cert.KernelIdeal.DenseProduct.product x0 x3 := by
  funext i
  rw [val_main_v0_apply]
  rfl

section AnyFamily
variable {F : FTy → Type} [FloatOps F]

/-- The reference's first gather is the first nodes' rows of the graph convolution of its first product. -/
theorem first_rows_eq (x0 : (⟨S100000x256, .f32⟩ : BufTy).Contents (Elt F)) (x1 : (⟨S2x1600000, .i32⟩ : BufTy).Contents (Elt F))
    (x2 : (⟨S16384x2, .i32⟩ : BufTy).Contents (Elt F)) (x3 : (⟨S256x64, .f32⟩ : BufTy).Contents (Elt F)) (x4 : (⟨S64, .f32⟩ : BufTy).Contents (Elt F)) :
    val_main_v60 (F := F) x0 x1 x2 x3 x4
      = Cert.KernelIdeal.Aggregate.firstRows (Cert.KernelIdeal.Aggregate.embedding (val_main_v0 (F := F) x0 x3) x1 x4) x2 := rfl

/-- The second gather is the second nodes' rows. -/
theorem second_rows_eq (x0 : (⟨S100000x256, .f32⟩ : BufTy).Contents (Elt F)) (x1 : (⟨S2x1600000, .i32⟩ : BufTy).Contents (Elt F))
    (x2 : (⟨S16384x2, .i32⟩ : BufTy).Contents (Elt F)) (x3 : (⟨S256x64, .f32⟩ : BufTy).Contents (Elt F)) (x4 : (⟨S64, .f32⟩ : BufTy).Contents (Elt F)) :
    val_main_v69 (F := F) x0 x1 x2 x3 x4
      = Cert.KernelIdeal.Aggregate.secondRows (Cert.KernelIdeal.Aggregate.embedding (val_main_v0 (F := F) x0 x3) x1 x4) x2 := rfl

end AnyFamily

/-! ## The head on the host -/

/-- The reference's joined rows, read at a pair `p` and column `j`. -/
theorem joined_entry (a b : S16384x64.Idx → EReal) (p : Fin 16384) (j : Fin 128) :
    concatenate S16384x128 1 [⟨S16384x64, a⟩, ⟨S16384x64, b⟩] concatenates_S16384x64_S16384x64_S16384x128_d1 (ix2 p j)
      = Cert.KernelIdeal.Head.joined (fun f => a (ix2 p f)) (fun f => b (ix2 p f)) j := by
  unfold Cert.KernelIdeal.Head.joined
  by_cases h : j.val < 64
  · rw [dif_pos h]
    exact concatenate_pair_apply_left (1 : Fin S16384x128.rank) a b concatenates_S16384x64_S16384x64_S16384x128_d1 (ix2 p j) rfl
      (ix2 p ⟨j.val, h⟩) (fun ax => by match ax with | ⟨0, _⟩ => rfl | ⟨1, _⟩ => rfl)
  · rw [dif_neg h]
    have hj : j.val < 128 := j.isLt
    exact concatenate_pair_apply_right (1 : Fin S16384x128.rank) a b concatenates_S16384x64_S16384x64_S16384x128_d1 (ix2 p j) rfl rfl
      (ix2 p ⟨j.val - 64, by omega⟩) (fun ax hne => by match ax with | ⟨0, _⟩ => rfl | ⟨1, _⟩ => exact absurd rfl hne)
      (by show (j.val - 64) + 64 = j.val; omega)

/-- The reference's hidden layer before the rectifier, at pair `p`, entry `k`. -/
theorem hidden_entry (x0 : (⟨S100000x256, .f32⟩ : BufTy).Contents (Elt Ideal)) (x1 : (⟨S2x1600000, .i32⟩ : BufTy).Contents (Elt Ideal))
    (x2 : (⟨S16384x2, .i32⟩ : BufTy).Contents (Elt Ideal)) (x3 : (⟨S256x64, .f32⟩ : BufTy).Contents (Elt Ideal)) (x4 : (⟨S64, .f32⟩ : BufTy).Contents (Elt Ideal))
    (x5 : (⟨S128x16, .f32⟩ : BufTy).Contents (Elt Ideal)) (x6 : (⟨S16, .f32⟩ : BufTy).Contents (Elt Ideal)) (p : Fin 16384) (k : Fin 16) :
    val_main_v74 (F := Ideal) x0 x1 x2 x3 x4 x5 x6 (ix2 p k)
      = Cert.KernelIdeal.Head.hidden (fun f => val_main_v60 (F := Ideal) x0 x1 x2 x3 x4 (ix2 p f)) (fun f => val_main_v69 (F := Ideal) x0 x1 x2 x3 x4 (ix2 p f)) x5 x6 k := by
  rw [val_main_v74_apply, val_main_v71_apply, val_main_v73_apply, val_main_v72_apply]
  unfold Cert.KernelIdeal.Head.hidden
  refine congrArg₂ (· + ·) (Finset.sum_congr rfl fun j _ => ?_) ?_
  · have hl : lidx_main_v71 (ix2 p k) j = (ix2 p j : S16384x128.Idx) := funext fun a => by match a with | ⟨0, _⟩ => rfl | ⟨1, _⟩ => rfl
    have hr : ridx_main_v71 (ix2 p k) j = (ix2 j k : S128x16.Idx) := funext fun a => by match a with | ⟨0, _⟩ => rfl | ⟨1, _⟩ => rfl
    rw [hl, hr]
    exact congrArg (· * x5 (ix2 j k)) (joined_entry _ _ p j)
  · exact congrArg x6 (funext fun a => by match a with | ⟨0, _⟩ => rfl)

/-- The reference's last value is every pair's score of its two gathers. -/
theorem scores_eq (x0 : (⟨S100000x256, .f32⟩ : BufTy).Contents (Elt Ideal)) (x1 : (⟨S2x1600000, .i32⟩ : BufTy).Contents (Elt Ideal))
    (x2 : (⟨S16384x2, .i32⟩ : BufTy).Contents (Elt Ideal)) (x3 : (⟨S256x64, .f32⟩ : BufTy).Contents (Elt Ideal)) (x4 : (⟨S64, .f32⟩ : BufTy).Contents (Elt Ideal))
    (x5 : (⟨S128x16, .f32⟩ : BufTy).Contents (Elt Ideal)) (x6 : (⟨S16, .f32⟩ : BufTy).Contents (Elt Ideal)) (x7 : (⟨S16x1, .f32⟩ : BufTy).Contents (Elt Ideal))
    (x8 : (⟨S1, .f32⟩ : BufTy).Contents (Elt Ideal)) :
    val_main_v89 (F := Ideal) x0 x1 x2 x3 x4 x5 x6 x7 x8
      = Cert.KernelIdeal.Head.scores (val_main_v60 (F := Ideal) x0 x1 x2 x3 x4) (val_main_v69 (F := Ideal) x0 x1 x2 x3 x4) x5 x6 x7 x8 := by
  funext i
  obtain ⟨p, z, rfl⟩ : ∃ (p : Fin 16384) (z : Fin 1), i = ix2 p z := ⟨i 0, i 1, eq_ix2 i⟩
  obtain rfl : z = 0 := Subsingleton.elim _ _
  rw [val_main_v89_apply, val_main_v88_apply, val_main_cst_18_apply, val_main_v87_apply, val_main_v86_apply, val_main_cst_17_apply,
    val_main_v85_apply, val_main_v84_apply, val_main_v83_apply, val_main_v80_apply, val_main_v82_apply, val_main_v81_apply]
  unfold Cert.KernelIdeal.Head.scores Cert.KernelIdeal.Head.score Ideal.logistic
  simp only [Ideal.hostDivf_def, Ideal.addf_def, Ideal.hostUnary_exp_def, Ideal.hostNegf_def, Ideal.negf_def, Ideal.ofBits_def, Ideal.ofBits_one_f32]
  refine congrArg (fun z => Ideal.div 1 (1 + Ideal.exp (-z))) (congrArg₂ (· + ·) (Finset.sum_congr rfl fun k _ => ?_) ?_)
  · have hl : lidx_main_v80 (ix2 p (0 : Fin 1)) k = (ix2 p k : S16384x16.Idx) := funext fun a => by match a with | ⟨0, _⟩ => rfl | ⟨1, _⟩ => rfl
    have hr : ridx_main_v80 (ix2 p (0 : Fin 1)) k = (ix2 k (0 : Fin 1) : S16x1.Idx) := funext fun a => by match a with | ⟨0, _⟩ => rfl | ⟨1, _⟩ => rfl
    rw [hl, hr, val_main_v79_apply, val_main_v76_apply, val_main_v78_apply, val_main_v75_apply, val_main_cst_15_apply, val_main_v77_apply, val_main_cst_16_apply, hidden_entry]
    rfl
  · exact congrArg x8 (funext fun a => by match a with | ⟨0, _⟩ => rfl)

end Cert.ReferenceIdeal.RefValue

end
-- ==== Proof.lean ====
/-
  The kernel's program and the reference compute, for every queried pair of nodes, the same score.
  Both multiply the node features by the convolution weights (the kernel twenty row blocks at a time, every entry the same
  sum over the 256 features), both push that product through the same normalised neighbourhood sums, bias and leaky
  rectifier and gather the two nodes' embedding rows, and both apply the two-layer head (the kernel eight row blocks at a
  time; the reference's 1 / (1 + exp (−z)) is the logistic function on the extended reals). No step needs the inputs finite.
-/
import proofs.«152402_j10050223473070_1_alg».proof.Defs
import proofs.«152402_j10050223473070_1_alg».proof.Proof.Gen.Kernel
import proofs.«152402_j10050223473070_1_alg».proof.Proof.Gen.Kernel.Skeleton
import proofs.«152402_j10050223473070_1_alg».proof.Proof.Gen.Kernel.Launch
import proofs.«152402_j10050223473070_1_alg».proof.Proof.Gen.Kernel.Points
import proofs.«152402_j10050223473070_1_alg».proof.Proof.Gen.Kernel.Frame
import proofs.«152402_j10050223473070_1_alg».proof.Proof.Gen.KernelIdeal
import proofs.«152402_j10050223473070_1_alg».proof.Proof.Gen.KernelIdeal.Skeleton
import proofs.«152402_j10050223473070_1_alg».proof.Proof.Gen.KernelIdeal.Launch
import proofs.«152402_j10050223473070_1_alg».proof.Proof.Gen.KernelIdeal.Points
import proofs.«152402_j10050223473070_1_alg».proof.Proof.Gen.KernelIdeal.Frame
import proofs.«152402_j10050223473070_1_alg».proof.Proof.Gen.ReferenceIdeal
import proofs.«152402_j10050223473070_1_alg».proof.Proof.Gen.Pre_finite_inputs
import proofs.«152402_j10050223473070_1_alg».proof.Proof.RunValue
import proofs.«152402_j10050223473070_1_alg».proof.Proof.DenseProduct
import proofs.«152402_j10050223473070_1_alg».proof.Proof.Between
import proofs.«152402_j10050223473070_1_alg».proof.Proof.Head
import proofs.«152402_j10050223473070_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-! ## What the kernel's program leaves in its result buffer -/

section KernelValue
open Cert.KernelIdeal Cert.KernelIdeal.Gen

variable (m : (ℓ : Loc nD τ sig) → Buf (Elt Ideal) ℓ) (ρ : Dev nD → PrngReg)

/-- The first region's array is the product of the launched node features and weights. -/
theorem trunk (c : Dev nD) :
    W1 m ρ c (Proc.devRef .tc main_v0)
      = DenseProduct.product (m ((c : Thread nD τ).loc main_arg0)) (m ((c : Thread nD τ).loc main_arg3)) :=
  (W1_arr m ρ c 2).trans (DenseProduct.array_eq (V0 m ρ) c)

/-- The result buffer after the run: every pair's score, from the graph convolution of that product. -/
theorem kernel_value (c : Dev nD) :
    W7 m ρ c (Proc.devRef .tc main_v70)
      = Head.scores
          (Aggregate.firstRows (Aggregate.embedding (DenseProduct.product (m ((c : Thread nD τ).loc main_arg0)) (m ((c : Thread nD τ).loc main_arg3)))
            (m ((c : Thread nD τ).loc main_arg1)) (m ((c : Thread nD τ).loc main_arg4))) (m ((c : Thread nD τ).loc main_arg2)))
          (Aggregate.secondRows (Aggregate.embedding (DenseProduct.product (m ((c : Thread nD τ).loc main_arg0)) (m ((c : Thread nD τ).loc main_arg3)))
            (m ((c : Thread nD τ).loc main_arg1)) (m ((c : Thread nD τ).loc main_arg4))) (m ((c : Thread nD τ).loc main_arg2)))
          (m ((c : Thread nD τ).loc main_arg5)) (m ((c : Thread nD τ).loc main_arg6))
          (m ((c : Thread nD τ).loc main_arg7)) (m ((c : Thread nD τ).loc main_arg8)) := by
  refine ((W7_arr m ρ c 6).trans (Head.array_eq (V6 m ρ) c)).trans ?_
  show Head.scores (W6 m ρ c (Proc.devRef .tc main_v62)) (W6 m ρ c (Proc.devRef .tc main_v69)) (V6 m ρ c main_arg5) (V6 m ρ c main_arg6)
    (V6 m ρ c main_arg7) (V6 m ρ c main_arg8) = _
  rw [Between.first_block, Between.second_block, Between.w1_kept, Between.b1_kept, Between.w2_kept, Between.b2_kept,
    Between.edges_kept, Between.pairs_kept, Between.bias_kept, trunk]

end KernelValue

/-! ## The claims -/

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.HostRun.run (F := Ideal) m ρ)

/-- Both programs end with every pair's score in their result: the kernel's by its two regions' arrays and the host
    operations between them, the reference's by its stages; the two are one function of arguments that agree. -/
theorem algebraic : Cert.algebraic_KernelIdeal_ReferenceIdeal := by
  intro m ρ m' ρ' _ hagree
  refine ⟨fun c => Cert.KernelIdeal.Gen.W7 m ρ c (Proc.devRef .tc Cert.KernelIdeal.main_v70), Cert.KernelIdeal.RunValue.run_result m ρ, ?_⟩
  refine (θ_run Cert.ReferenceIdeal.defs _ _).mono (fun _ h c => ⟨(h c).1.trans ?_, (h c).2⟩)
    (Cert.ReferenceIdeal.HostRun.run (F := Ideal) m' ρ')
  obtain ⟨a0, a1, a2, a3, a4, a5, a6, a7, a8⟩ := hagree c
  show _ = Cert.KernelIdeal.Gen.W7 m ρ c (Proc.devRef .tc Cert.KernelIdeal.main_v70)
  rw [Cert.ReferenceIdeal.RefValue.scores_eq, Cert.ReferenceIdeal.RefValue.first_rows_eq,
    Cert.ReferenceIdeal.RefValue.second_rows_eq, Cert.ReferenceIdeal.RefValue.trunk_eq, kernel_value, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
